-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.truncf_extf.Statement Cert.KernelIdeal.S2000x64 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S50000x1024 : Shape := ⟨2, ![50000, 1024]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S50000x1024 : S_.BroadcastsInDim S50000x1024 (![] : Fin 0 → Fin S50000x1024.rank)
  reducesTo_S50000x1024_S_d0_1 : S50000x1024.ReducesTo [0, 1] S_

variable [Facts]

def fn {F : FTy → Type} [FloatOps F] (main_arg0 : FVec F S50000x64 .f32) (main_arg1 : FVec F S50000x1024 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S50000x1024 .f32 := Host.absf main_arg1
  let main_cst_0 : FVec F S_ .f32 := constant S_ .f32 0x7F800000#32
  let main_v5 : FVec F S50000x1024 .f32 := broadcastInDim S50000x1024 ![] bcast_S_S50000x1024 main_cst_0
  let main_v6 : IVec S50000x1024 1 := cmpf .olt main_v4 main_v5
  let main_c_1 : IVec S_ 1 := constantI S_ 1 1#1
  let main_v7 : IVec S_ 1 := (fun x v => Host.reduce IntOp.andi x v reducesTo_S50000x1024_S_d0_1 h_S_) main_v6 main_c_1
  let main_v8 : IVec S_ 1 := andi main_v3 main_v7
  main_v8
-- ==== Kernel.lean ====
abbrev S50000x64 : Shape := ⟨2, ![50000, 64]⟩
abbrev S50000x1024 : Shape := ⟨2, ![50000, 1024]⟩
abbrev S1x64 : Shape := ⟨2, ![1, 64]⟩
abbrev S2000x64 : Shape := ⟨2, ![2000, 64]⟩
abbrev S2000x1024 : Shape := ⟨2, ![2000, 1024]⟩
abbrev S1024x256 : Shape := ⟨2, ![1024, 256]⟩
abbrev S2000x128 : Shape := ⟨2, ![2000, 128]⟩
abbrev S2000x256 : Shape := ⟨2, ![2000, 256]⟩
abbrev S1024x64 : Shape := ⟨2, ![1024, 64]⟩
abbrev S1024x1 : Shape := ⟨2, ![1024, 1]⟩
abbrev S64 : Shape := ⟨1, ![64]⟩

abbrev nBuf : Space → Nat
  | .hbm => 4
  | .vmem => 6
  | .smem => 0
  | _ => 0

abbrev bufTy : (tb : Table) → Fin (tcTables nBuf tb) → BufTy
  | .hbm, ⟨0, _⟩ => ⟨S50000x64, .f32⟩
  | .hbm, ⟨1, _⟩ => ⟨S50000x1024, .f32⟩
  | .hbm, ⟨2, _⟩ => ⟨S1x64, .f32⟩
  | .hbm, ⟨3, _⟩ => ⟨S64, .f32⟩
  | .local _ .vmem, ⟨0, _⟩ => ⟨S2000x64, .f32⟩
  | .local _ .vmem, ⟨1, _⟩ => ⟨S2000x64, .f32⟩
  | .local _ .vmem, ⟨2, _⟩ => ⟨S2000x1024, .f32⟩
  | .local _ .vmem, ⟨3, _⟩ => ⟨S2000x1024, .f32⟩
  | .local _ .vmem, ⟨4, _⟩ => ⟨S1x64, .f32⟩
  | .local _ .vmem, ⟨5, _⟩ => ⟨S1024x256, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![25], ![false]⟩

def k0_cond2 (i : grid0.Coords) : BitVec 1 :=
  let arg0 : BitVec 32 := BitVec.ofNat 32 (i 0).val
  let c24_i32 : BitVec 32 := 24#32
  let v31 : BitVec 1 := Scalar.cmpi .eq arg0 c24_i32
  let v32 : BitVec 32 := Scalar.extui v31
  let c0_i32_11 : BitVec 32 := 0#32
  let v33 : BitVec 1 := Scalar.cmpi .ne v32 c0_i32_11
  v33

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

class Facts₀ : Prop where
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S2000x64_S2000x64_0_0 : ∀ a, (![0, 0] : Fin 2 → Nat) a + S2000x64.size a ≤ S2000x64.size a
  h_S2000x64 : 0 < S2000x64.numel
  bitsLt_bf16_f32 : FTy.bits .bf16 < FTy.bits .f32
  iota_S2000x64_d1_w32 : S2000x64.Iotas .tc 32 [1]
  natLt_1_32 : 1 < 32
  concatenates_S2000x64_S2000x64_S2000x128_d1 : Shape.Concatenates [S2000x64, S2000x64] S2000x128 1
  concatenates_S2000x128_S2000x128_S2000x256_d1 : Shape.Concatenates [S2000x128, S2000x128] S2000x256 1
  inb_S2000x1024_S2000x1024_0_0 : ∀ a, (![0, 0] : Fin 2 → Nat) a + S2000x1024.size a ≤ S2000x1024.size a
  h_S2000x1024 : 0 < S2000x1024.numel
  slices_S1024x256_o0_0_S1024x64 : S1024x256.Slices ![0, 0] S1024x64
  slices_S1024x256_o0_128_S1024x64 : S1024x256.Slices ![0, 128] S1024x64
  slices_S1024x256_o0_192_S1024x1 : S1024x256.Slices ![0, 192] S1024x1
  broadcasts_S1024x1_S1024x64 : S1024x1.Broadcasts S1024x64
  reduces_S1024x64_S64 : S1024x64.Reduces [0] S64
  shapeCasts_S64_S1x64 : S64.ShapeCasts S1x64
  inb_S1x64_S1x64_0_0 : ∀ a, (![0, 0] : Fin 2 → Nat) a + S1x64.size a ≤ S1x64.size a
  h_S1x64 : 0 < S1x64.numel
  shapeCasts_S1x64_S64 : S1x64.ShapeCasts S64
  dot_S2000x1024_S2000x256_S1024x256_0_0_1_1_n_n_wf : DotDims.WF S2000x1024 S2000x256 S1024x256 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x64.size a ≤ S50000x64.size a
  hwx0_0 : ∀ i : grid0.Coords, EltTy.bits .f32 = 32 ∨ (Rect.block (s := S50000x64) S2000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x1024.size a ≤ S50000x1024.size a
  hwx0_1 : ∀ i : grid0.Coords, EltTy.bits .f32 = 32 ∨ (Rect.block (s := S50000x1024) S2000x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)

variable [Facts₀]

def dot_S2000x1024_S2000x256_S1024x256_0_0_1_1_n_n : DotDims S2000x1024 S2000x256 S1024x256 where
  lhsContracting := [0]
  rhsContracting := [0]
  lhsNonContracting := [1]
  rhsNonContracting := [1]
  lhsBatch := []
  rhsBatch := []
  wf := dot_S2000x1024_S2000x256_S1024x256_0_0_1_1_n_n_wf

abbrev win0_0 : Pipeline.Window sig grid0 :=
  Pipeline.Window.ofSpec (Memref.whole main_arg0) S2000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2000x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x64.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S50000x64 : Shape := ⟨2, ![50000, 64]⟩
abbrev S50000x1024 : Shape := ⟨2, ![50000, 1024]⟩
abbrev S_ : Shape := ⟨0, ![]⟩
abbrev S1024x50000 : Shape := ⟨2, ![1024, 50000]⟩
abbrev S1024x64 : Shape := ⟨2, ![1024, 64]⟩
abbrev S1024 : Shape := ⟨1, ![1024]⟩
abbrev S1024x1 : Shape := ⟨2, ![1024, 1]⟩
abbrev S64 : Shape := ⟨1, ![64]⟩

abbrev nBuf : Space → Nat
  | .hbm => 15
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S50000x1024, .f32⟩
  | .hbm, ⟨2, _⟩ => ⟨S_, .f32⟩
  | .hbm, ⟨3, _⟩ => ⟨S50000x1024, .f32⟩
  | .hbm, ⟨4, _⟩ => ⟨S50000x1024, .i1⟩
  | .hbm, ⟨5, _⟩ => ⟨S50000x1024, .f32⟩
  | .hbm, ⟨6, _⟩ => ⟨S1024x50000, .f32⟩
  | .hbm, ⟨7, _⟩ => ⟨S1024x64, .f32⟩
  | .hbm, ⟨8, _⟩ => ⟨S_, .f32⟩
  | .hbm, ⟨9, _⟩ => ⟨S1024, .f32⟩
  | .hbm, ⟨10, _⟩ => ⟨S1024x1, .f32⟩
  | .hbm, ⟨11, _⟩ => ⟨S1024x64, .f32⟩
  | .hbm, ⟨12, _⟩ => ⟨S1024x64, .f32⟩
  | .hbm, ⟨13, _⟩ => ⟨S_, .f32⟩
  | .hbm, ⟨14, _⟩ => ⟨S64, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩

abbrev nD : Nat := 1
abbrev τ : Topo := Topo.v7x

variable {F : FTy → Type} [FloatOps F]

class Facts₀ : Prop where
  bcast_S_S50000x1024 : S_.BroadcastsInDim S50000x1024 (![] : Fin 0 → Fin S50000x1024.rank)
  transposes_S50000x1024_S1024x50000_1_0 : S50000x1024.Transposes [1, 0] S1024x50000
  reducesTo_S50000x1024_S1024_d0 : S50000x1024.ReducesTo [0] S1024
  h_S_ : 0 < S_.numel
  bcast_S1024_S1024x1_0 : S1024.BroadcastsInDim S1024x1 (![0] : Fin 1 → Fin S1024x1.rank)
  bcast_S1024x1_S1024x64_0_1 : S1024x1.BroadcastsInDim S1024x64 (![0, 1] : Fin 2 → Fin S1024x64.rank)
  reducesTo_S1024x64_S64_d0 : S1024x64.ReducesTo [0] S64
  dot_S1024x50000_S50000x64_S1024x64_1_0_0_1_n_n_wf : DotDims.WF S1024x50000 S50000x64 S1024x64 [1] [0] [0] [1] [] []

variable [Facts₀]

def dot_S1024x50000_S50000x64_S1024x64_1_0_0_1_n_n : DotDims S1024x50000 S50000x64 S1024x64 where
  lhsContracting := [1]
  rhsContracting := [0]
  lhsNonContracting := [0]
  rhsNonContracting := [1]
  lhsBatch := []
  rhsBatch := []
  wf := dot_S1024x50000_S50000x64_S1024x64_1_0_0_1_n_n_wf

class Facts : Prop extends Facts₀ where

variable [Facts]
-- ==== Proof.Pieces.lean ====
/-
  What one grid point leaves in the kernel's two carried buffers, as values.

  The kernel walks 25 grid points. Each point holds a block of 2000 rows of the node embeddings and the matching
  2000 rows of the incidence table, and updates a 1024 x 256 accumulator: at the first point the accumulator is
  first set to zero, at every point it is replaced by (accumulator + selected-rows product of the two blocks),
  and at the last point the output block is the final reduction of the accumulator just updated. The four
  lemmas below say exactly that, for any float instance: each buffer's final contents is the payload of the
  one store that covers it, with every load reading a whole buffer.
-/
import proofs.«146869_g77077483094351_cont_sun_m_92_18_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Acc

open Cert.KernelIdeal Cert.KernelIdeal.Gen

variable {F : FTy → Type} [FloatOps F]

theorem hz : (![0, 0] : Fin 2 → Nat) = fun _ => 0 := funext fun a => by fin_cases a <;> rfl

/-- A middle grid point: the accumulator holding `acc` is left at the update of `acc` by the point's two
    input blocks (one store covering the accumulator, its three loads reading whole buffers). -/
theorem acc_B (c : Dev nD) (i : grid0.Coords) (a1 : Memref sig .tc .vmem S2000x64 .f32) (h1 : a1.IsWhole)
    (a2 : Memref sig .tc .vmem S2000x1024 .f32) (h2 : a2.IsWhole) (a3 : Memref sig .tc .vmem S1x64 .f32) (h3 : a3.IsWhole)
    (a4 : Memref sig .tc .vmem S1024x256 .f32) (h4 : a4.IsWhole) (hc0 : ¬cond0_0 i) (hc1 : ¬cond0_1 i)
    (x0 : Vec F S2000x64 .f32) (x1 : Vec F S2000x1024 .f32) (acc : Vec F S1024x256 .f32) :
    sout0_B_0 c i a1 h1 a2 h2 a3 h3 a4 h4 hc0 hc1 x0 x1 acc = k0_pay2 x0 x1 acc := by
  unfold sout0_B_0
  rw [View.read_writes_eq_canon _ _ _ (scover0_B_0 c i a1 h1 a2 h2 a3 h3 a4 h4 hc0 hc1 x0 x1 acc)]
  unfold kernelRun0_B
  dsimp only
  sl_unfold_words
  rw [View.canon_unit_zero hz]
  simp only [View.readAt_eq_ld, h1.read_unread, h2.read_unread, h4.read_unread, View.ld_unit_zero (S := S2000x64) hz,
    View.ld_unit_zero (S := S2000x1024) hz, View.ld_unit_zero (S := S1024x256) hz]

/-- The first grid point: the accumulator is first set to the zero block, read back, and left at the update of
    the zero block by the point's two input blocks. -/
theorem acc_A (c : Dev nD) (i : grid0.Coords) (a1 : Memref sig .tc .vmem S2000x64 .f32) (h1 : a1.IsWhole)
    (a2 : Memref sig .tc .vmem S2000x1024 .f32) (h2 : a2.IsWhole) (a3 : Memref sig .tc .vmem S1x64 .f32) (h3 : a3.IsWhole)
    (a4 : Memref sig .tc .vmem S1024x256 .f32) (h4 : a4.IsWhole) (hc0 : cond0_0 i) (hc1 : ¬cond0_1 i)
    (x0 : Vec F S2000x64 .f32) (x1 : Vec F S2000x1024 .f32) :
    sout0_A_0 c i a1 h1 a2 h2 a3 h3 a4 h4 hc0 hc1 x0 x1 = k0_pay2 x0 x1 (k0_pay1 (F := F)) := by
  unfold sout0_A_0
  rw [View.read_writes_eq_canon _ _ _ (scover0_A_0 c i a1 h1 a2 h2 a3 h3 a4 h4 hc0 hc1 x0 x1)]
  unfold kernelRun0_A
  dsimp only
  sl_unfold_words
  rw [View.canon_cons_unit_zero (S := S1024x256) hz, View.readCov_unit_zero (S := S1024x256) _ hz]
  simp only [View.readAt_eq_ld, h1.read_unread, h2.read_unread, View.ld_unit_zero (S := S2000x64) hz,
    View.ld_unit_zero (S := S2000x1024) hz]

/-- The last grid point, the accumulator: as at a middle point. -/
theorem acc_C (c : Dev nD) (i : grid0.Coords) (a1 : Memref sig .tc .vmem S2000x64 .f32) (h1 : a1.IsWhole)
    (a2 : Memref sig .tc .vmem S2000x1024 .f32) (h2 : a2.IsWhole) (a3 : Memref sig .tc .vmem S1x64 .f32) (h3 : a3.IsWhole)
    (a4 : Memref sig .tc .vmem S1024x256 .f32) (h4 : a4.IsWhole) (hc0 : ¬cond0_0 i) (hc1 : cond0_1 i)
    (x0 : Vec F S2000x64 .f32) (x1 : Vec F S2000x1024 .f32) (acc : Vec F S1024x256 .f32) :
    sout0_C_0 c i a1 h1 a2 h2 a3 h3 a4 h4 hc0 hc1 x0 x1 acc = k0_pay2 x0 x1 acc := by
  unfold sout0_C_0
  rw [View.read_writes_eq_canon _ _ _ (scover0_C_0 c i a1 h1 a2 h2 a3 h3 a4 h4 hc0 hc1 x0 x1 acc)]
  unfold kernelRun0_C
  dsimp only
  sl_unfold_words
  rw [View.canon_unit_zero hz]
  simp only [View.readAt_eq_ld, h1.read_unread, h2.read_unread, h4.read_unread, View.ld_unit_zero (S := S2000x64) hz,
    View.ld_unit_zero (S := S2000x1024) hz, View.ld_unit_zero (S := S1024x256) hz]

/-- The last grid point, the output block: the final reduction of the accumulator as this point leaves it. -/
theorem out_C (c : Dev nD) (i : grid0.Coords) (a1 : Memref sig .tc .vmem S2000x64 .f32) (h1 : a1.IsWhole)
    (a2 : Memref sig .tc .vmem S2000x1024 .f32) (h2 : a2.IsWhole) (a3 : Memref sig .tc .vmem S1x64 .f32) (h3 : a3.IsWhole)
    (a4 : Memref sig .tc .vmem S1024x256 .f32) (h4 : a4.IsWhole) (hc0 : ¬cond0_0 i) (hc1 : cond0_1 i)
    (x0 : Vec F S2000x64 .f32) (x1 : Vec F S2000x1024 .f32) (acc : Vec F S1024x256 .f32) :
    out0_C_2 c i a1 h1 a2 h2 a3 h3 a4 h4 hc0 hc1 x0 x1 acc = k0_pay3 (k0_pay2 x0 x1 acc) := by
  unfold out0_C_2
  rw [View.read_writes_eq_canon _ _ _ (cover0_C_2 c i a1 h1 a2 h2 a3 h3 a4 h4 hc0 hc1 x0 x1 acc)]
  unfold kernelRun0_C
  dsimp only
  sl_unfold_words
  rw [View.canon_unit_zero hz]
  simp only [View.readAt_eq_ld, h1.read_unread, h2.read_unread, h4.read_unread, View.ld_unit_zero (S := S2000x64) hz,
    View.ld_unit_zero (S := S2000x1024) hz, View.ld_unit_zero (S := S1024x256) hz,
    View.readCov_unit_zero (S := S1024x256) _ hz]

end Cert.KernelIdeal.Acc

end
-- ==== Proof.Accum.lean ====
/-
  The accumulator after each grid point, by induction on the point.

  Write X_t and H_t for the t-th blocks of 2000 rows of the two argument arrays. After point 0 the accumulator
  holds the update of the zero block by (X_0, H_0); after point n + 1 it holds the update by (X_{n+1}, H_{n+1})
  of what point n left. The last point (24) also writes the output block: the final reduction of the
  accumulator as that point leaves it. No point is enumerated: the step from n to n + 1 only asks which of the
  three kinds of point n + 1 is (first, middle, last).
-/
import proofs.«146869_g77077483094351_cont_sun_m_92_18_alg».proof.Proof.Pieces

set_option maxRecDepth 16384

noncomputable section

open Idealize.ShloMosaic Idealize.ShloMosaic.TcCoe Idealize.SL.Sem
open Idealize.ShloMosaic.Pipeline (Dat)

namespace Cert.KernelIdeal.Acc

open Cert.KernelIdeal Cert.KernelIdeal.Gen

variable {F : FTy → Type} [FloatOps F]
variable (m : (ℓ : Loc nD τ sig) → Buf (Elt F) ℓ)

/-- Block t of the node embeddings and of the incidence table, as the grid point t finds them. -/
abbrev xblk (c : Dev nD) (t : Fin cfg0.N) : Vec F S2000x64 .f32 := iblk m c 0 t
abbrev hblk (c : Dev nD) (t : Fin cfg0.N) : Vec F S2000x1024 .f32 := iblk m c 1 t

/-- The accumulator after point n: the zero block updated by the blocks of points 0, 1, ..., n in turn. -/
def accAfter (c : Dev nD) : (n : ℕ) → n < cfg0.N → Vec F S1024x256 .f32
  | 0, h => k0_pay2 (xblk m c ⟨0, h⟩) (hblk m c ⟨0, h⟩) (k0_pay1 (F := F))
  | n + 1, h => k0_pay2 (xblk m c ⟨n + 1, h⟩) (hblk m c ⟨n + 1, h⟩) (accAfter c n (Nat.lt_of_succ_lt h))

/-- What the accumulator holds after point n is that chain of updates. -/
theorem scratch_eq (c : Dev nD) : ∀ (n : ℕ) (h : n < cfg0.N), (outsAt0 m c n h).2 = accAfter m c n h
  | 0, h => by
    rw [outsAt0_A m c ⟨0, h⟩ rfl (by dsimp only; omega)]
    dsimp only
    exact acc_A (F := F) c (grid0.coords ⟨0, h⟩) (ms0_0 ⟨0, h⟩) (hs0_0 ⟨0, h⟩) (ms0_1 ⟨0, h⟩) (hs0_1 ⟨0, h⟩)
      (ms0_2 ⟨0, h⟩) (hs0_2 ⟨0, h⟩) scM0_0 (Memref.isWhole_whole _) _ _ (iblk m c 0 ⟨0, h⟩) (iblk m c 1 ⟨0, h⟩)
  | n + 1, h => by
    have hN : cfg0.N = 25 := N_0
    have h0 : ¬(⟨n + 1, h⟩ : Fin cfg0.N).val % 25 = 0 := by dsimp only; omega
    by_cases h1 : (⟨n + 1, h⟩ : Fin cfg0.N).val % 25 = 24
    · rw [outsAt0_C m c ⟨n + 1, h⟩ h0 h1]
      dsimp only
      refine (acc_C (F := F) c (grid0.coords ⟨n + 1, h⟩) (ms0_0 ⟨n + 1, h⟩) (hs0_0 ⟨n + 1, h⟩) (ms0_1 ⟨n + 1, h⟩)
        (hs0_1 ⟨n + 1, h⟩) (ms0_2 ⟨n + 1, h⟩) (hs0_2 ⟨n + 1, h⟩) scM0_0 (Memref.isWhole_whole _) _ _
        (iblk m c 0 ⟨n + 1, h⟩) (iblk m c 1 ⟨n + 1, h⟩) (outsAt0 m c n (Nat.lt_of_succ_lt h)).2).trans ?_
      show k0_pay2 _ _ (outsAt0 m c n _).2 = k0_pay2 _ _ (accAfter m c n _)
      rw [scratch_eq c n]
    · rw [outsAt0_B m c ⟨n + 1, h⟩ h0 h1]
      dsimp only
      refine (acc_B (F := F) c (grid0.coords ⟨n + 1, h⟩) (ms0_0 ⟨n + 1, h⟩) (hs0_0 ⟨n + 1, h⟩) (ms0_1 ⟨n + 1, h⟩)
        (hs0_1 ⟨n + 1, h⟩) (ms0_2 ⟨n + 1, h⟩) (hs0_2 ⟨n + 1, h⟩) scM0_0 (Memref.isWhole_whole _) _ _
        (iblk m c 0 ⟨n + 1, h⟩) (iblk m c 1 ⟨n + 1, h⟩) (outsAt0 m c n (Nat.lt_of_succ_lt h)).2).trans ?_
      show k0_pay2 _ _ (outsAt0 m c n _).2 = k0_pay2 _ _ (accAfter m c n _)
      rw [scratch_eq c n]

/-- The last point. -/
abbrev tLast : Fin cfg0.N := ⟨24, by rw [show cfg0.N = 25 from N_0]; decide⟩

/-- What the last point leaves in the output block: the final reduction of the accumulator after it. -/
theorem out_last (c : Dev nD) :
    (outsAt0 m c tLast.val tLast.isLt).1 = k0_pay3 (accAfter m c tLast.val tLast.isLt) := by
  have h0 : ¬(tLast : Fin cfg0.N).val % 25 = 0 := by decide
  have h1 : (tLast : Fin cfg0.N).val % 25 = 24 := by decide
  rw [outsAt0_C m c tLast h0 h1]
  dsimp only
  refine (out_C (F := F) c (grid0.coords tLast) (ms0_0 tLast) (hs0_0 tLast) (ms0_1 tLast)
    (hs0_1 tLast) (ms0_2 tLast) (hs0_2 tLast) scM0_0 (Memref.isWhole_whole _) _ _
    (iblk m c 0 tLast) (iblk m c 1 tLast) (outsAt0 m c (tLast.val - 1) _).2).trans ?_
  show k0_pay3 (k0_pay2 _ _ (outsAt0 m c 23 _).2) = k0_pay3 (k0_pay2 _ _ (accAfter m c 23 _))
  rw [scratch_eq m c 23]

end Cert.KernelIdeal.Acc

end
-- ==== Proof.Operands.lean ====
/-
  The two operands of the body's matrix product, named.

  `sel H` is the selection block: entry (r, e) is 1 where row r of the incidence block is positive in
  column e, else 0. `aug X` is the augmented embedding block, 256 columns wide: columns 0..63 hold the block
  X itself, columns 64..127 zeros, columns 128..191 the difference X - X (the low-order part of a two-term
  splitting of X, which is exactly zero when nothing is rounded), and columns 192..255 a column of ones
  followed by zeros. The accumulator update is  acc + (sel H)ᵀ · (aug X)  (contraction over the 2000 rows), so
  that column j collects the selected sums of X's column j and column 192 collects the selected counts.
-/
import proofs.«146869_g77077483094351_cont_sun_m_92_18_alg».proof.Proof.Gen.KernelIdeal.Skeleton

noncomputable section

open Idealize.ShloMosaic Idealize.ShloMosaic.TcCoe Idealize.SL.Sem

namespace Cert.KernelIdeal.Acc

open Cert.KernelIdeal Cert.KernelIdeal.Gen

variable {F : FTy → Type} [FloatOps F]

/-- The selection block of an incidence block: 1 where the entry is positive, else 0. -/
def sel (h : Vec F S2000x1024 .f32) : FVec F S2000x1024 .bf16 :=
  truncf .bf16 (sitofp .f32 (extui 32 (cmpf .ogt (truncf .bf16 h bitsLt_bf16_f32)
    (broadcast S2000x1024 (Scalar.ofBits .bf16 0x0000#16))) natLt_1_32)) bitsLt_bf16_f32

/-- The column of ones followed by zeros: 1 in column 0 of a 2000 x 64 block, else 0. -/
def onesCol : FVec F S2000x64 .bf16 :=
  truncf .bf16 (sitofp .f32 (extui 32 (cmpi .eq (iota .tc S2000x64 32 [1] iota_S2000x64_d1_w32)
    (broadcast S2000x64 0#32)) natLt_1_32)) bitsLt_bf16_f32

/-- The augmented embedding block  [ X | 0 | X - X | ones column, zeros ]. -/
def aug (x : Vec F S2000x64 .f32) : FVec F S2000x256 .bf16 :=
  concatenate S2000x256 1
    [⟨S2000x128, concatenate S2000x128 1 [⟨S2000x64, truncf .bf16 x bitsLt_bf16_f32⟩,
        ⟨S2000x64, broadcast S2000x64 (Scalar.ofBits .bf16 0x0000#16)⟩] concatenates_S2000x64_S2000x64_S2000x128_d1⟩,
     ⟨S2000x128, concatenate S2000x128 1 [⟨S2000x64, truncf .bf16 (subf x x) bitsLt_bf16_f32⟩,
        ⟨S2000x64, onesCol (F := F)⟩] concatenates_S2000x64_S2000x64_S2000x128_d1⟩]
    concatenates_S2000x128_S2000x128_S2000x256_d1

/-- Column j of the block X inside the augmented block. -/
def colLo (j : Fin 64) : Fin 256 := ⟨j.val, by have := j.isLt; omega⟩
/-- Column j of the difference X - X inside the augmented block. -/
def colMid (j : Fin 64) : Fin 256 := ⟨128 + j.val, by have := j.isLt; omega⟩
/-- The column of ones inside the augmented block. -/
def colCnt : Fin 256 := ⟨192, by decide⟩

theorem colLo_val (j : Fin 64) : (colLo j).val = j.val := rfl
theorem colMid_val (j : Fin 64) : (colMid j).val = 128 + j.val := rfl
theorem colCnt_val : colCnt.val = 192 := rfl

/-- The accumulator update is the old accumulator plus the product of the two named operands. -/
theorem pay2_eq (x : Vec F S2000x64 .f32) (h : Vec F S2000x1024 .f32) (acc : Vec F S1024x256 .f32) :
    k0_pay2 x h acc = shapeCast S1024x256 (addf acc (matmul dot_S2000x1024_S2000x256_S1024x256_0_0_1_1_n_n none
      (sel h) (aug x) (constant S1024x256 .f32 0x00000000#32))) shapeCasts_S1024x256_S1024x256 := rfl

end Cert.KernelIdeal.Acc

end
-- ==== Proof.MatmulIdx.lean ====
/-
  The accumulator update read at an entry.

  The body's matrix product contracts the 2000 rows of the two blocks: entry (e, q) of (sel H)ᵀ · (aug X) is the
  sum over the rows r of  sel H (r, e) · aug X (r, q).  So the updated accumulator at (e, q) is the old entry
  plus that sum. The product starts from a zero block, which adds nothing.
-/
import proofs.«146869_g77077483094351_cont_sun_m_92_18_alg».proof.Proof.Operands
import Idealize.ShloMosaic.Lib.Pipeline.Value
import Idealize.ShloMosaic.Lib.ValueIdx
import Idealize.ShloMosaic.PureOps.Ideal.Laws

noncomputable section

open scoped BigOperators
open Idealize.ShloMosaic Idealize.ShloMosaic.TcCoe Idealize.SL.Sem Idealize.ShloMosaic.ValueIdx

namespace Cert.KernelIdeal.Acc

open Cert.KernelIdeal Cert.KernelIdeal.Gen

/-- The left operand is read at (contracted row, output row): its axis 0 is the contracted one, -/
theorem lhs_dot_0 (i : S1024x256.Idx) (q : dot_S2000x1024_S2000x256_S1024x256_0_0_1_1_n_n.contr.Idx) :
    (dot_S2000x1024_S2000x256_S1024x256_0_0_1_1_n_n.lhsIdx i q 0).val = (q ⟨0, by decide⟩).val :=
  dot_S2000x1024_S2000x256_S1024x256_0_0_1_1_n_n.lhsIdx_val_of_single rfl i q
/-- and its axis 1 follows the output's row. -/
theorem lhs_dot_1 (i : S1024x256.Idx) (q : dot_S2000x1024_S2000x256_S1024x256_0_0_1_1_n_n.contr.Idx) :
    (dot_S2000x1024_S2000x256_S1024x256_0_0_1_1_n_n.lhsIdx i q 1).val = (i 0).val := by
  unfold DotDims.lhsIdx
  rw [dif_neg (show ¬(1 : Fin S2000x1024.rank) ∈ dot_S2000x1024_S2000x256_S1024x256_0_0_1_1_n_n.lhsBatch by decide), dif_pos (show (1 : Fin S2000x1024.rank) ∈ dot_S2000x1024_S2000x256_S1024x256_0_0_1_1_n_n.lhsNonContracting by decide)]
  rfl
/-- The right operand is read at (contracted row, output column). -/
theorem rhs_dot_0 (i : S1024x256.Idx) (q : dot_S2000x1024_S2000x256_S1024x256_0_0_1_1_n_n.contr.Idx) :
    (dot_S2000x1024_S2000x256_S1024x256_0_0_1_1_n_n.rhsIdx i q 0).val = (q ⟨0, by decide⟩).val :=
  dot_S2000x1024_S2000x256_S1024x256_0_0_1_1_n_n.rhsIdx_val_of_single rfl i q
theorem rhs_dot_1 (i : S1024x256.Idx) (q : dot_S2000x1024_S2000x256_S1024x256_0_0_1_1_n_n.contr.Idx) :
    (dot_S2000x1024_S2000x256_S1024x256_0_0_1_1_n_n.rhsIdx i q 1).val = (i 1).val := by
  unfold DotDims.rhsIdx
  rw [dif_neg (show ¬(1 : Fin S2000x256.rank) ∈ dot_S2000x1024_S2000x256_S1024x256_0_0_1_1_n_n.rhsBatch by decide), dif_pos (show (1 : Fin S2000x256.rank) ∈ dot_S2000x1024_S2000x256_S1024x256_0_0_1_1_n_n.rhsNonContracting by decide)]
  rfl

/-- The updated accumulator at (e, q): the old entry plus the sum over the block's rows of the selection
    at (r, e) times the augmented block at (r, q). -/
theorem pay2_apply (x : Vec Ideal S2000x64 .f32) (h : Vec Ideal S2000x1024 .f32) (acc : Vec Ideal S1024x256 .f32)
    (e : Fin 1024) (q : Fin 256) :
    k0_pay2 (F := Ideal) x h acc (ix2 e q)
      = acc (ix2 e q) + ∑ r : Fin 2000, sel (F := Ideal) h (ix2 r e) * aug (F := Ideal) x (ix2 r q) := by
  rw [pay2_eq, shapeCast_self, addf_apply]
  refine congrArg (acc (ix2 e q) + ·) ?_
  simp only [matmul]
  rw [Ideal.matmul_constant_zero_apply, ← Equiv.sum_comp (contrEquiv1 dot_S2000x1024_S2000x256_S1024x256_0_0_1_1_n_n 2000 rfl rfl).symm]
  refine Finset.sum_congr rfl fun k _ => ?_
  have hk := contrEquiv1_symm_val dot_S2000x1024_S2000x256_S1024x256_0_0_1_1_n_n 2000 rfl rfl k
  have el : dot_S2000x1024_S2000x256_S1024x256_0_0_1_1_n_n.lhsIdx (ix2 e q) ((contrEquiv1 dot_S2000x1024_S2000x256_S1024x256_0_0_1_1_n_n 2000 rfl rfl).symm k) = ix2 k e := funext fun a => Fin.ext (by
    match a with
    | ⟨0, _⟩ => exact (lhs_dot_0 _ _).trans hk
    | ⟨1, _⟩ => exact lhs_dot_1 _ _)
  have er : dot_S2000x1024_S2000x256_S1024x256_0_0_1_1_n_n.rhsIdx (ix2 e q) ((contrEquiv1 dot_S2000x1024_S2000x256_S1024x256_0_0_1_1_n_n 2000 rfl rfl).symm k) = ix2 k q := funext fun a => Fin.ext (by
    match a with
    | ⟨0, _⟩ => exact (rhs_dot_0 _ _).trans hk
    | ⟨1, _⟩ => exact rhs_dot_1 _ _)
  rw [el, er]

end Cert.KernelIdeal.Acc

end
-- ==== Proof.Pooled.lean ====
/-
  The value both programs compute, as one function of the two argument arrays over the extended reals.

  X is the table of node embeddings (50000 rows, 64 columns) and H the incidence table (50000 rows, 1024
  hyperedges). Hyperedge e selects the rows k with H k e > 0. `sums X H e j` adds column j of X over the
  selected rows, `counts H e` counts them, `means` is their quotient, and `pooled` takes, for each column j,
  the maximum of the means over the 1024 hyperedges, starting from minus infinity.

  Two laws are proved here for later use. A sum over the 50000 rows is the sum over 25 consecutive blocks of
  2000 rows. And a selected sum of x - x vanishes when every x is a real number: on the extended reals
  infinity minus infinity is not 0, and this is the one place where finiteness of X is needed.
-/
import Idealize.ShloMosaic.PureOps.Ideal
import Idealize.ShloMosaic.Lib.ValueIdx

noncomputable section

open scoped BigOperators

namespace Cert.HyperedgePool

open Idealize.ShloMosaic Idealize.ShloMosaic.ValueIdx

/-- The arrays' shapes: node embeddings, incidence table, pooled result. -/
abbrev SX : Shape := ⟨2, ![50000, 64]⟩
abbrev SH : Shape := ⟨2, ![50000, 1024]⟩
abbrev SO : Shape := ⟨1, ![64]⟩

/-- The membership indicator: 1 where the incidence entry is positive, 0 elsewhere. -/
def ind (h : EReal) : EReal := if 0 < h then 1 else 0

/-- Column j of X added over the rows hyperedge e selects. -/
def sums (X : SX.Idx → EReal) (H : SH.Idx → EReal) (e : Fin 1024) (j : Fin 64) : EReal :=
  ∑ k : Fin 50000, ind (H (ix2 k e)) * X (ix2 k j)

/-- How many rows hyperedge e selects. -/
def counts (H : SH.Idx → EReal) (e : Fin 1024) : EReal := ∑ k : Fin 50000, ind (H (ix2 k e))

/-- The mean of column j over hyperedge e's rows (the quotient's value at an empty hyperedge is the division's own). -/
def means (X : SX.Idx → EReal) (H : SH.Idx → EReal) (e : Fin 1024) (j : Fin 64) : EReal :=
  Ideal.div (sums X H e j) (counts H e)

/-- The pooled result: per column, the largest mean over all hyperedges. -/
def pooled (X : SX.Idx → EReal) (H : SH.Idx → EReal) : SO.Idx → EReal := fun i =>
  (Finset.univ : Finset (Fin 1024)).fold max ⊥ (fun e => means X H e (i 0))

/-- Row r of block t, among the 50000 rows. -/
def row (t : Fin 25) (r : Fin 2000) : Fin 50000 :=
  ⟨2000 * t.val + r.val, by have := t.isLt; have := r.isLt; omega⟩

theorem row_val (t : Fin 25) (r : Fin 2000) : (row t r).val = 2000 * t.val + r.val := rfl

/-- A sum over the 50000 rows, block by block. -/
theorem sum_rows {M : Type*} [AddCommMonoid M] (f : Fin 50000 → M) :
    ∑ k : Fin 50000, f k = ∑ t : Fin 25, ∑ r : Fin 2000, f (row t r) := by
  rw [← Fintype.sum_prod_type']
  refine (Fintype.sum_equiv (finProdFinEquiv (m := 25) (n := 2000)) _ _ (fun p => ?_)).symm
  refine congrArg f (Fin.ext ?_)
  show 2000 * p.1.val + p.2.val = p.2.val + 2000 * p.1.val
  omega

/-- A weighted sum of differences x - x of real numbers is 0. -/
theorem sum_mul_sub_self {K : Type*} [Fintype K] (μ x : K → EReal) (hx : ∀ k, ∃ r : ℝ, x k = (r : EReal)) :
    ∑ k, μ k * (x k - x k) = 0 :=
  Finset.sum_eq_zero fun k _ => by
    obtain ⟨r, hr⟩ := hx k
    rw [hr, ← EReal.coe_sub, sub_self, EReal.coe_zero, mul_zero]

end Cert.HyperedgePool

end
-- ==== Proof.OperandsIdx.lean ====
/-
  The two operands of the body's matrix product, read at an index over the extended reals.

  The selection block at (r, e) is the membership indicator of the incidence entry: the compare with zero gives
  one bit, and that bit widened to 32 bits and read as a signed integer is 1 when set and 0 when clear; changes
  of float format do nothing on the extended reals.

  The augmented block is two concatenations along the column axis. A column below 128 lies in the left half, whose
  own left piece (columns 0..63) is the block X. Column 128 + j lies in the right half at its column j, in that
  half's left piece, the difference X - X. Column 192 lies in the right half at its column 64, which is column 0
  of that half's right piece, the column of ones: there the column counter is 0, the compare with 0 is a set bit,
  and the bit read as a signed integer is 1.
-/
import proofs.«146869_g77077483094351_cont_sun_m_92_18_alg».proof.Proof.Operands
import proofs.«146869_g77077483094351_cont_sun_m_92_18_alg».proof.Proof.Pooled
import Idealize.ShloMosaic.Lib.Pipeline.Value
import Idealize.ShloMosaic.Lib.ValueIdx
import Idealize.ShloMosaic.PureOps.Ideal.Laws

noncomputable section

open Idealize.ShloMosaic Idealize.ShloMosaic.TcCoe Idealize.SL.Sem

namespace Cert.KernelIdeal.Acc

open Cert.KernelIdeal Cert.KernelIdeal.Gen Idealize.ShloMosaic.ValueIdx

/-- The bf16 word 0x0000 is zero. -/
theorem ofBits_bf16_zero : Ideal.ofBits .bf16 0x0000#16 = 0 := by simp [Ideal.ofBits, Ideal.ieee]

/-- A one-bit word widened to 32 bits and read as a signed integer: 1 for a set bit, 0 for a clear one. -/
theorem toInt_setWidth_ofBool (c : Bool) : ((BitVec.ofBool c).setWidth 32).toInt = if c then 1 else 0 := by
  cases c
  · decide
  · decide

/-- The one-bit answer of x > 0, widened and read as a signed integer, is the membership indicator of x. -/
theorem toInt_cmp_ogt_zero (x : EReal) :
    ((((Ideal.cmp .ogt x 0).setWidth 32).toInt : ℝ) : EReal) = Cert.HyperedgePool.ind x := by
  unfold Cert.HyperedgePool.ind Ideal.cmp
  rw [toInt_setWidth_ofBool]
  by_cases hp : (0 : EReal) < x
  · simp [hp]
  · simp [hp]

/-- The selection block at (r, e) is the indicator of the incidence entry there. -/
theorem sel_apply (h : Vec Ideal S2000x1024 .f32) (r : Fin 2000) (e : Fin 1024) :
    sel (F := Ideal) h (ix2 r e) = Cert.HyperedgePool.ind (h (ix2 r e)) := by
  show ((((Ideal.cmp .ogt (h (ix2 r e)) (Ideal.ofBits .bf16 0x0000#16)).setWidth 32).toInt : ℝ) : EReal)
    = Cert.HyperedgePool.ind (h (ix2 r e))
  rw [ofBits_bf16_zero]
  exact toInt_cmp_ogt_zero (h (ix2 r e))

/-- The column of ones at its column 0 is 1. -/
theorem onesCol_zero (r : Fin 2000) : onesCol (F := Ideal) (ix2 r (⟨0, by decide⟩ : Fin 64)) = 1 := by
  show ((((IntOp.cmpi .eq (iota .tc S2000x64 32 [1] iota_S2000x64_d1_w32 (ix2 r (⟨0, by decide⟩ : Fin 64))) 0#32).setWidth 32).toInt : ℝ) : EReal) = 1
  rw [iota_single_apply]
  show ((((IntOp.cmpi .eq (BitVec.ofNat 32 0) 0#32).setWidth 32).toInt : ℝ) : EReal) = 1
  have hw : ((IntOp.cmpi .eq (BitVec.ofNat 32 0) 0#32).setWidth 32).toInt = 1 := by decide
  rw [hw]
  simp

/-- Columns 0..63 of the augmented block hold X. -/
theorem aug_lo (x : Vec Ideal S2000x64 .f32) (r : Fin 2000) (j : Fin 64) :
    aug (F := Ideal) x (ix2 r (colLo j)) = x (ix2 r j) := by
  unfold aug
  rw [concatenate_pair_apply_left (1 : Fin S2000x256.rank) _ _ concatenates_S2000x128_S2000x128_S2000x256_d1
    (ix2 r (colLo j)) rfl (ix2 r (⟨j.val, by have := j.isLt; omega⟩ : Fin 128))
    (fun b => match b with | ⟨0, _⟩ => rfl | ⟨1, _⟩ => rfl)]
  rw [concatenate_pair_apply_left (1 : Fin S2000x128.rank) _ _ concatenates_S2000x64_S2000x64_S2000x128_d1
    (ix2 r (⟨j.val, by have := j.isLt; omega⟩ : Fin 128)) rfl (ix2 r j)
    (fun b => match b with | ⟨0, _⟩ => rfl | ⟨1, _⟩ => rfl)]
  rfl

/-- Columns 128..191 of the augmented block hold X - X. -/
theorem aug_mid (x : Vec Ideal S2000x64 .f32) (r : Fin 2000) (j : Fin 64) :
    aug (F := Ideal) x (ix2 r (colMid j)) = x (ix2 r j) - x (ix2 r j) := by
  unfold aug
  rw [concatenate_pair_apply_right (1 : Fin S2000x256.rank) _ _ concatenates_S2000x128_S2000x128_S2000x256_d1
    (ix2 r (colMid j)) rfl rfl (ix2 r (⟨j.val, by have := j.isLt; omega⟩ : Fin 128))
    (fun b hb => match b, hb with | ⟨0, _⟩, _ => rfl | ⟨1, _⟩, hb => absurd rfl hb)
    (by show j.val + 128 = 128 + j.val; omega)]
  rw [concatenate_pair_apply_left (1 : Fin S2000x128.rank) _ _ concatenates_S2000x64_S2000x64_S2000x128_d1
    (ix2 r (⟨j.val, by have := j.isLt; omega⟩ : Fin 128)) rfl (ix2 r j)
    (fun b => match b with | ⟨0, _⟩ => rfl | ⟨1, _⟩ => rfl)]
  rfl

/-- Column 192 of the augmented block is 1. -/
theorem aug_cnt (x : Vec Ideal S2000x64 .f32) (r : Fin 2000) :
    aug (F := Ideal) x (ix2 r colCnt) = 1 := by
  unfold aug
  rw [concatenate_pair_apply_right (1 : Fin S2000x256.rank) _ _ concatenates_S2000x128_S2000x128_S2000x256_d1
    (ix2 r colCnt) rfl rfl (ix2 r (⟨64, by decide⟩ : Fin 128))
    (fun b hb => match b, hb with | ⟨0, _⟩, _ => rfl | ⟨1, _⟩, hb => absurd rfl hb)
    (by show 64 + 128 = 192; rfl)]
  rw [concatenate_pair_apply_right (1 : Fin S2000x128.rank) _ _ concatenates_S2000x64_S2000x64_S2000x128_d1
    (ix2 r (⟨64, by decide⟩ : Fin 128)) rfl rfl (ix2 r (⟨0, by decide⟩ : Fin 64))
    (fun b hb => match b, hb with | ⟨0, _⟩, _ => rfl | ⟨1, _⟩, hb => absurd rfl hb)
    (by show 0 + 64 = 64; rfl)]
  exact onesCol_zero r

end Cert.KernelIdeal.Acc

end
-- ==== Proof.FinalReduce.lean ====
/-
  The body's final reduction, read at one output entry over the extended reals.

  The accumulator a has 1024 rows (one per hyperedge) and 256 columns. The last step takes the columns 0..63
  and the columns 128..191, adds them entry by entry, divides row e of the sum by the entry a(e, 192) (that one
  column repeated across all 64 columns), and takes, for each column j, the maximum over the 1024 rows starting
  from minus infinity; the row of 64 maxima is stored as a 1 x 64 array. Hence output entry (0, j) is

      max over e of  (a(e, j) + a(e, 128 + j)) / a(e, 192),

  a fold of max from ⊥ over the 1024 rows.
-/
import proofs.«146869_g77077483094351_cont_sun_m_92_18_alg».proof.Proof.Operands
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic

namespace Cert.KernelIdeal.Acc

open Cert.KernelIdeal Cert.KernelIdeal.Gen Idealize.ShloMosaic.ValueIdx

/-- The f32 pattern 0xFF800000 is minus infinity. -/
theorem ofBits_neg_inf_f32 : Ideal.ofBits .f32 0xFF800000#32 = ⊥ := by simp [Ideal.ofBits, Ideal.ieee]

/-- The index of the 1024 x 64 quotient that row e contributes to column j's maximum is (e, j). -/
theorem lift_row (j : Fin 64) (e : Fin 1024) : reduces_S1024x64_S64.lift (ix1 j) e = ix2 e j := by
  funext d
  match d with
  | ⟨0, _⟩ => exact Fin.ext rfl
  | ⟨1, _⟩ => exact Fin.ext rfl

/-- Output entry (0, j) of the final reduction: the maximum over the rows e of (a(e, j) + a(e, 128 + j)) / a(e, 192). -/
theorem pay3_apply (a : Vec Ideal S1024x256 .f32) (j : Fin 64) :
    k0_pay3 (F := Ideal) a (ix2 (0 : Fin 1) j)
      = (Finset.univ : Finset (Fin 1024)).fold max ⊥
          (fun e => Ideal.div (a (ix2 e (colLo j)) + a (ix2 e (colMid j))) (a (ix2 e colCnt))) := by
  unfold k0_pay3
  refine (shapeCast_a_1a_apply _ _ (0 : Fin 1) j).trans ?_
  refine (Ideal.multiReduction_maximumf_single _ _ _ _ _ _).trans ?_
  show Finset.fold max (Ideal.ofBits .f32 0xFF800000#32) _ (Finset.univ : Finset (Fin 1024)) = _
  rw [ofBits_neg_inf_f32]
  refine congrArg (fun f : Fin 1024 → EReal => Finset.fold max ⊥ f Finset.univ) (funext fun (e : Fin 1024) => ?_)
  have h1 : extractStridedSlice S1024x64 ![0, 0] a slices_S1024x256_o0_0_S1024x64 (ix2 e j) = a (ix2 e (colLo j)) :=
    slice2_axis1_apply 0 a _ e j (colLo j) (by rw [colLo_val]; omega)
  have h2 : extractStridedSlice S1024x64 ![0, 128] a slices_S1024x256_o0_128_S1024x64 (ix2 e j) = a (ix2 e (colMid j)) :=
    slice2_axis1_apply 128 a _ e j (colMid j) (colMid_val j)
  have h3 : broadcastTo S1024x64 (extractStridedSlice S1024x1 ![0, 192] a slices_S1024x256_o0_192_S1024x1)
      broadcasts_S1024x1_S1024x64 (ix2 e j) = a (ix2 e colCnt) := by
    refine (broadcastTo_apply _ _ (ix2 e j) (ix2 e (0 : Fin 1)) (fun ax => ?_)).trans ?_
    · match ax with
      | ⟨0, _⟩ => rfl
      | ⟨1, _⟩ => rfl
    · exact slice2_axis1_apply 192 a _ e (0 : Fin 1) colCnt rfl
  show Ideal.div
      (extractStridedSlice S1024x64 ![0, 0] a slices_S1024x256_o0_0_S1024x64 (reduces_S1024x64_S64.lift (ix1 j) e)
        + extractStridedSlice S1024x64 ![0, 128] a slices_S1024x256_o0_128_S1024x64 (reduces_S1024x64_S64.lift (ix1 j) e))
      (broadcastTo S1024x64 (extractStridedSlice S1024x1 ![0, 192] a slices_S1024x256_o0_192_S1024x1)
        broadcasts_S1024x1_S1024x64 (reduces_S1024x64_S64.lift (ix1 j) e)) = _
  rw [lift_row, h1, h2, h3]

end Cert.KernelIdeal.Acc

end
-- ==== Proof.Closed.lean ====
/-
  The accumulator and the output block in closed form, over the extended reals.

  Block t of an argument array, read at row r, is the array at row 2000 t + r. The accumulator after point n, at
  (e, q), is the sum over the points t ≤ n of the sum over the block's rows r of  sel H_t (r, e) · aug X_t (r, q).
  After the last point this is a sum over all 50000 rows, and in the three column families that the final
  reduction reads it is: in column j, the selected sum of X's column j; in column 128 + j, the selected sum of
  X - X, which is 0 because the entries of X are real numbers; in column 192, the selected count. So the output
  block at (0, j) is the maximum over the hyperedges e of (selected sum + 0) / (selected count): the pooled value.
-/
import proofs.«146869_g77077483094351_cont_sun_m_92_18_alg».proof.Proof.Accum
import proofs.«146869_g77077483094351_cont_sun_m_92_18_alg».proof.Proof.MatmulIdx
import proofs.«146869_g77077483094351_cont_sun_m_92_18_alg».proof.Proof.OperandsIdx
import proofs.«146869_g77077483094351_cont_sun_m_92_18_alg».proof.Proof.FinalReduce
import proofs.«146869_g77077483094351_cont_sun_m_92_18_alg».proof.Proof.Pooled

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Acc

open Cert.KernelIdeal Cert.KernelIdeal.Gen Cert.HyperedgePool

variable (m : (ℓ : Loc nD τ sig) → Buf (Elt Ideal) ℓ)

/-- The two argument arrays on core c. -/
abbrev argX (c : Dev nD) : S50000x64.Idx → EReal := m ((c : Thread nD τ).loc main_arg0)
abbrev argH (c : Dev nD) : S50000x1024.Idx → EReal := m ((c : Thread nD τ).loc main_arg1)

/-- A grid point as a block number below 25. -/
def blockNo (t : Fin cfg0.N) : Fin 25 := ⟨t.val, lt_of_lt_of_eq t.isLt (show cfg0.N = 25 from N_0)⟩

/-- Both input windows' block index at point t is (t, 0). -/
theorem idx0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
theorem idx1 : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)

/-- Block t of the node embeddings at (r, j) is the array at (2000 t + r, j). -/
theorem xblk_apply (c : Dev nD) (t : Fin cfg0.N) (r : Fin 2000) (j : Fin 64) :
    xblk m c t (ix2 r j) = argX m c (ix2 (row (blockNo t) r) j) := by
  unfold xblk iblk
  rw [View.read_apply]
  show V m c main_arg0 _ = m ((c : Thread nD τ).loc main_arg0) _
  rw [V_main_arg0]
  refine congrArg (m ((c : Thread nD τ).loc main_arg0)) (funext fun a => Fin.ext ?_)
  match a with
  | ⟨0, _⟩ =>
    show win0_0.index t 0 * 2000 + 1 * r.val = 2000 * t.val + r.val
    rw [(idx0 t).1]; omega
  | ⟨1, _⟩ =>
    show win0_0.index t 1 * 64 + 1 * j.val = j.val
    rw [(idx0 t).2]; omega

/-- Block t of the incidence table at (r, e) is the array at (2000 t + r, e). -/
theorem hblk_apply (c : Dev nD) (t : Fin cfg0.N) (r : Fin 2000) (e : Fin 1024) :
    hblk m c t (ix2 r e) = argH m c (ix2 (row (blockNo t) r) e) := by
  unfold hblk iblk
  rw [View.read_apply]
  show V m c main_arg1 _ = m ((c : Thread nD τ).loc main_arg1) _
  rw [V_main_arg1]
  refine congrArg (m ((c : Thread nD τ).loc main_arg1)) (funext fun a => Fin.ext ?_)
  match a with
  | ⟨0, _⟩ =>
    show win0_1.index t 0 * 2000 + 1 * r.val = 2000 * t.val + r.val
    rw [(idx1 t).1]; omega
  | ⟨1, _⟩ =>
    show win0_1.index t 1 * 1024 + 1 * e.val = e.val
    rw [(idx1 t).2]; omega

/-- The block the first point sets the accumulator to is zero everywhere. -/
theorem pay1_apply (i : S1024x256.Idx) : k0_pay1 (F := Ideal) i = 0 := by
  unfold k0_pay1
  rw [shapeCast_self]
  exact Ideal.ofBits_zero_f32

/-- What point t adds to the accumulator at (e, q); zero past the grid. -/
def term (c : Dev nD) (t : ℕ) (e : Fin 1024) (q : Fin 256) : EReal :=
  if ht : t < cfg0.N then
    ∑ r : Fin 2000, sel (F := Ideal) (hblk m c ⟨t, ht⟩) (ix2 r e) * aug (F := Ideal) (xblk m c ⟨t, ht⟩) (ix2 r q)
  else 0

/-- The accumulator after point n is the sum of what the points up to n added. -/
theorem accAfter_apply (c : Dev nD) : ∀ (n : ℕ) (h : n < cfg0.N) (e : Fin 1024) (q : Fin 256),
    accAfter m c n h (ix2 e q) = ∑ t ∈ Finset.range (n + 1), term m c t e q
  | 0, h, e, q => by
    show k0_pay2 (F := Ideal) (xblk m c ⟨0, h⟩) (hblk m c ⟨0, h⟩) (k0_pay1 (F := Ideal)) (ix2 e q) = _
    rw [pay2_apply, pay1_apply, zero_add, Finset.sum_range_one, term, dif_pos h]
  | n + 1, h, e, q => by
    show k0_pay2 (F := Ideal) (xblk m c ⟨n + 1, h⟩) (hblk m c ⟨n + 1, h⟩) (accAfter m c n _) (ix2 e q) = _
    rw [pay2_apply, accAfter_apply c n _ e q, Finset.sum_range_succ _ (n + 1)]
    refine congrArg (_ + ·) ?_
    rw [term, dif_pos h]

/-- After the last point, at (e, q): a sum over the 25 blocks and the 2000 rows of each. -/
theorem accLast_apply (c : Dev nD) (e : Fin 1024) (q : Fin 256) :
    accAfter m c tLast.val tLast.isLt (ix2 e q)
      = ∑ t : Fin 25, ∑ r : Fin 2000,
          ind (argH m c (ix2 (row t r) e)) * aug (F := Ideal) (xblk m c ⟨t.val, lt_of_lt_of_eq t.isLt (show 25 = cfg0.N from N_0.symm)⟩) (ix2 r q) := by
  rw [accAfter_apply]
  show ∑ t ∈ Finset.range 25, term m c t e q = _
  rw [Finset.sum_range]
  refine Finset.sum_congr rfl fun t _ => ?_
  rw [term, dif_pos (lt_of_lt_of_eq t.isLt (show 25 = cfg0.N from N_0.symm))]
  refine Finset.sum_congr rfl fun r _ => ?_
  rw [sel_apply, hblk_apply]
  rfl

/-- Column j after the last point: the selected sum of X's column j. -/
theorem accLast_lo (c : Dev nD) (e : Fin 1024) (j : Fin 64) :
    accAfter m c tLast.val tLast.isLt (ix2 e (colLo j)) = sums (argX m c) (argH m c) e j := by
  rw [accLast_apply]
  unfold sums
  rw [sum_rows]
  refine Finset.sum_congr rfl fun t _ => Finset.sum_congr rfl fun r _ => ?_
  rw [aug_lo, xblk_apply]
  rfl

/-- Column 128 + j after the last point: zero, the entries of X being real numbers. -/
theorem accLast_mid (c : Dev nD) (hX : ∀ i, ∃ x : ℝ, argX m c i = (x : EReal)) (e : Fin 1024) (j : Fin 64) :
    accAfter m c tLast.val tLast.isLt (ix2 e (colMid j)) = 0 := by
  rw [accLast_apply]
  refine Finset.sum_eq_zero fun t _ => ?_
  have := sum_mul_sub_self (fun r : Fin 2000 => ind (argH m c (ix2 (row t r) e)))
    (fun r : Fin 2000 => argX m c (ix2 (row t r) j)) (fun r => hX _)
  refine Eq.trans (Finset.sum_congr rfl fun r _ => ?_) this
  rw [aug_mid, xblk_apply]
  rfl

/-- Column 192 after the last point: the selected count. -/
theorem accLast_cnt (c : Dev nD) (e : Fin 1024) :
    accAfter m c tLast.val tLast.isLt (ix2 e colCnt) = counts (argH m c) e := by
  rw [accLast_apply]
  unfold counts
  rw [sum_rows]
  refine Finset.sum_congr rfl fun t _ => Finset.sum_congr rfl fun r _ => ?_
  rw [aug_cnt, mul_one]

/-- The output block the last point writes, at (0, j), is the pooled value of column j. -/
theorem outLast_apply (c : Dev nD) (hX : ∀ i, ∃ x : ℝ, argX m c i = (x : EReal)) (j : Fin 64) :
    (outsAt0 m c tLast.val tLast.isLt).1 (ix2 (0 : Fin 1) j) = pooled (argX m c) (argH m c) (ix1 j) := by
  rw [out_last, pay3_apply]
  unfold pooled means
  refine congrArg (Finset.fold max ⊥ · Finset.univ) (funext fun e => ?_)
  rw [accLast_lo, accLast_mid m c hX, accLast_cnt, add_zero]

end Cert.KernelIdeal.Acc

end
-- ==== Proof.KernelRun.lean ====
/-
  The kernel's run, read: its result is the pooled function of its two arguments.

  The output window is written back once, after the last grid point, and its single block is the whole
  1 x 64 array; so that array ends holding the output block of the last point. The one host operation after
  the region reshapes it to the 64-vector that is the program's result. Entry j of that vector is entry (0, j) of
  the block, which is the pooled value of column j.
-/
import proofs.«146869_g77077483094351_cont_sun_m_92_18_alg».proof.Proof.Closed
import Idealize.ShloMosaic.Lib.Pipeline.Value
import Idealize.ShloMosaic.Lib.StableHlo.Run
import Idealize.ShloMosaic.Lib.Tactic

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Acc

open Cert.KernelIdeal Cert.KernelIdeal.Gen Cert.HyperedgePool

section AnyInstance

variable {F : FTy → Type} [FloatOps F]
variable (m : (ℓ : Loc nD τ sig) → Buf (Elt F) ℓ) (ρ : Dev nD → PrngReg)

/-- The output block the last point leaves, as contents of the 1 x 64 array the region writes. -/
abbrev outBlock (c : Dev nD) : Buf (Elt F) ((c : Thread nD τ).loc main_v0) := (outsAt0 m c tLast.val tLast.isLt).1

/-- The one write-back (after the last point) writes that block: the window's block (0, 0) is the whole array. -/
theorem flushed_eq (c : Dev nD) (t : Fin cfg0.N) (hf : (cfg0.win 2).flush t = true) :
    (dats m 0 c).flushed 2 t = ((cfg0.win 2).blk t).view.read (Elt F) (outBlock m c) := by
  have hN : cfg0.N = 25 := N_0
  have h24 : t.val = 24 := by have := (flush0_2 t).mp hf; have := t.isLt; omega
  obtain rfl : t = tLast := Fin.ext h24
  show (cfg0.win 2).cut (grid0.coords tLast) ((dats m 0 c).after 2 tLast) = _
  rw [after0_2]
  have hz' : (fun a => win0_2.index tLast a * main_v0.ty.shape.size a) = fun _ => 0 :=
    funext fun a => by fin_cases a <;> decide +kernel
  exact (Memref.read_access_unit_zero (Elt F) main_v0 hz' (fun a => by rw [congrFun hz' a]; simp) (outBlock m c)).symm

/-- So the array the region writes ends holding the last point's output block. -/
theorem final (c : Dev nD) : (dats m 0 c).arrAt 2 cfg0.N = outBlock m c :=
  (dats m 0 c).arrAt_eq_of_cover 2 (outBlock m c) (flushed_eq m c) fun i =>
    ⟨tLast, (flush0_2 tLast).mpr rfl, by
      show i ∈ ((View.whole main_v0).slice (win0_2.rect tLast)).set
      rw [View.set_slice_whole, Rect.mem_set_unit]
      intro a
      have h0 : (i 0 : Nat) < 1 := (i 0).isLt
      have h1 : (i 1 : Nat) < 64 := (i 1).isLt
      match a with
      | ⟨0, _⟩ =>
        show win0_2.index tLast 0 * win0_2.size 0 ≤ (i 0 : Nat) ∧ (i 0 : Nat) < win0_2.index tLast 0 * win0_2.size 0 + win0_2.xsize (grid0.coords tLast) 0
        rw [show win0_2.index tLast 0 * win0_2.size 0 = 0 from by decide +kernel, show win0_2.xsize (grid0.coords tLast) 0 = 1 from by decide +kernel]; omega
      | ⟨1, _⟩ =>
        show win0_2.index tLast 1 * win0_2.size 1 ≤ (i 1 : Nat) ∧ (i 1 : Nat) < win0_2.index tLast 1 * win0_2.size 1 + win0_2.xsize (grid0.coords tLast) 1
        rw [show win0_2.index tLast 1 * win0_2.size 1 = 0 from by decide +kernel, show win0_2.xsize (grid0.coords tLast) 1 = 64 from by decide +kernel]; omega⟩

/-- The program's result: the output block reshaped to a 64-vector. -/
abbrev result (c : Dev nD) : Buf (Elt F) ((c : Thread nD τ).loc main_v1) :=
  shapeCast S64 (outBlock m c) shapeCasts_S1x64_S64

/-- The host operation after the region leaves that reshape in the result buffer. -/
theorem tail_eq (c : Dev nD) :
    Pipeline.afterTail₀ cfgs (dats m) 0 (V0 m) [hostOps1] c main_v1 = result m c := by
  unfold Pipeline.afterTail₀
  show StableHlo.after hostOps1 _ (Proc.devRef .tc main_v1) = _
  after_results
  have hA : Pipeline.withArrays (cfgs 0).spec c (V0 m c) (fun w => (dats m 0 c).arrAt w (cfgs 0).N)
      (Proc.tc.devRef main_v0) = outBlock m c :=
    (Pipeline.withArrays_arr spec0 launch0.win.arr_inj c _ _ 2).trans (final m c)
  rw [hA]
  rfl

/-- The result buffer is no array of the region and is not scoped: the run's post reads it through the host tail. -/
theorem v1_rest : main_v1 ∈ Pipeline.restRefs sig (cfgs 0).spec :=
  Pipeline.mem_restRefs_of main_v1 rfl (by decide)

/-- The run, read: the result buffer at the reshaped output block, the two arguments unchanged. -/
theorem run : θ_run defs (onTc (τ := τ) (main (F := F))) ⟨m, fun _ => 0, ρ⟩ fun r => ∀ c : Dev nD,
      r.2.mem ((c.tc : Thread nD τ).loc main_v1) = result m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v1 v1_rest).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end AnyInstance

/-- Over the extended reals, with real node embeddings, the result is the pooled function of the arguments. -/
theorem result_eq (m : (ℓ : Loc nD τ sig) → Buf (Elt Ideal) ℓ) (c : Dev nD)
    (hX : ∀ i, ∃ x : ℝ, argX m c i = (x : EReal)) :
    result m c = pooled (argX m c) (argH m c) := by
  funext i
  obtain ⟨j, rfl⟩ : ∃ j : Fin 64, i = ix1 j := ⟨i 0, eq_ix1 i⟩
  refine Eq.trans ?_ (outLast_apply m c hX j)
  show shapeCast S64 (outBlock m c) shapeCasts_S1x64_S64 (ix1 j) = outBlock m c (ix2 (0 : Fin 1) j)
  refine (shapeCast_dropUnit_apply ![64] (outBlock m c) shapeCasts_S1x64_S64 (ix1 j)).trans ?_
  refine congrArg (outBlock m c) (funext fun a => ?_)
  match a with
  | ⟨0, _⟩ => rfl
  | ⟨1, _⟩ => rfl

end Cert.KernelIdeal.Acc

end
-- ==== Proof.RefPooled.lean ====
/-
  The reference program, read at the extended reals, computes the pooled function.

  The program's stages are read one at a time at an index. The compare H > 0 followed by the conversion
  of its one-bit answer to a number is the membership indicator. The contraction of the transposed indicator
  table with X, at (e, j), is the sum over the rows k of the indicator of H k e times X k j. The count, at e, is
  zero plus the sum over k of the indicator of H k e, and the two broadcasts carry it to every column j. Their
  quotient at (e, j) is the mean. The last stage folds the maximum over the hyperedge axis starting from the word
  0xFF800000, which is minus infinity: at column j this is the fold of max from minus infinity over e of the mean
  at (e, j).
-/
import proofs.«146869_g77077483094351_cont_sun_m_92_18_alg».proof.Proof.Pooled
import proofs.«146869_g77077483094351_cont_sun_m_92_18_alg».proof.Proof.Gen.ReferenceIdeal.Read
import Idealize.ShloMosaic.PureOps.Reduce
import Idealize.ShloMosaic.PureOps.Ideal.Laws

noncomputable section

open scoped BigOperators

namespace Cert.ReferenceIdeal.RefValue

open Cert.ReferenceIdeal Cert.ReferenceIdeal.Gen Cert.ReferenceIdeal.Read Idealize.ShloMosaic
  Idealize.ShloMosaic.ValueIdx Cert.HyperedgePool

/-- The word 0xFF800000 is minus infinity. -/
theorem ofBits_neg_inf : Ideal.ofBits .f32 0xFF800000#32 = ⊥ := by simp [Ideal.ofBits, Ideal.ieee]

/-- The one-bit answer of h > 0, read as a number, is the membership indicator of h. -/
theorem toNat_cmp_ogt_zero (h : EReal) : (((Ideal.cmp .ogt h 0).toNat : ℝ) : EReal) = ind h := by
  unfold ind Ideal.cmp
  by_cases hp : (0 : EReal) < h
  · simp [hp]
  · simp [hp]

/-- The converted compare, at row k and hyperedge e, is the indicator of H k e. -/
theorem v2_read (x1 : (⟨S50000x1024, .f32⟩ : BufTy).Contents (Elt Ideal)) (i : S50000x1024.Idx) :
    val_main_v2 (F := Ideal) x1 i = ind (x1 i) := by
  rw [val_main_v2_apply, val_main_v1_apply, val_main_v0_apply, val_main_cst_apply]
  show (((Ideal.cmp .ogt (x1 i) (Ideal.ofBits .f32 0x00000000#32)).toNat : ℝ) : EReal) = ind (x1 i)
  rw [Ideal.ofBits_zero_f32]
  exact toNat_cmp_ogt_zero (x1 i)

/-- The contraction, at hyperedge e and column j, is the selected sum of column j. -/
theorem v4_read (x0 : (⟨S50000x64, .f32⟩ : BufTy).Contents (Elt Ideal))
    (x1 : (⟨S50000x1024, .f32⟩ : BufTy).Contents (Elt Ideal)) (e : Fin 1024) (j : Fin 64) :
    val_main_v4 (F := Ideal) x0 x1 (ix2 e j) = sums x0 x1 e j := by
  rw [val_main_v4_apply]
  unfold sums
  refine Finset.sum_congr rfl fun k _ => ?_
  have el : idx_main_v3 (lidx_main_v4 (ix2 e j) k) = ix2 k e :=
    funext fun a => Fin.ext (by match a with | ⟨0, _⟩ => rfl | ⟨1, _⟩ => rfl)
  have er : ridx_main_v4 (ix2 e j) k = ix2 k j :=
    funext fun a => Fin.ext (by match a with | ⟨0, _⟩ => rfl | ⟨1, _⟩ => rfl)
  rw [val_main_v3_apply, el, er, v2_read]

/-- The broadcast count, at hyperedge e and any column, is the number of selected rows. -/
theorem v7_read (x1 : (⟨S50000x1024, .f32⟩ : BufTy).Contents (Elt Ideal)) (e : Fin 1024) (j : Fin 64) :
    val_main_v7 (F := Ideal) x1 (ix2 e j) = counts x1 e := by
  rw [val_main_v7_apply, val_main_v6_apply, val_main_v5_apply, val_main_cst_0_apply]
  show Ideal.ofBits .f32 0x00000000#32 + _ = _
  rw [Ideal.ofBits_zero_f32, zero_add]
  unfold counts
  refine Finset.sum_congr rfl fun k _ => ?_
  have ec : idx_main_v5 (idx_main_v6 (idx_main_v7 (ix2 e j))) k = ix2 k e :=
    funext fun a => Fin.ext (by match a with | ⟨0, _⟩ => rfl | ⟨1, _⟩ => rfl)
  rw [ec, v2_read]

/-- The quotient, at hyperedge e and column j, is the mean. -/
theorem v8_read (x0 : (⟨S50000x64, .f32⟩ : BufTy).Contents (Elt Ideal))
    (x1 : (⟨S50000x1024, .f32⟩ : BufTy).Contents (Elt Ideal)) (e : Fin 1024) (j : Fin 64) :
    val_main_v8 (F := Ideal) x0 x1 (ix2 e j) = means x0 x1 e j := by
  rw [val_main_v8_apply, v4_read, v7_read]
  rfl

/-- The reference's last stage is the pooled function. -/
theorem ref_pooled (x0 : (⟨Cert.ReferenceIdeal.S50000x64, .f32⟩ : BufTy).Contents (Elt Ideal))
    (x1 : (⟨Cert.ReferenceIdeal.S50000x1024, .f32⟩ : BufTy).Contents (Elt Ideal)) :
    Cert.ReferenceIdeal.Read.val_main_v9 (F := Ideal) x0 x1 = Cert.HyperedgePool.pooled x0 x1 := by
  funext i
  have hr : S1024x64.Reduces [0] S64 := by decide
  have hfold := Host.reduce_eq_fold_single (FloatOps.maximumf (F := Ideal) (φ := .f32))
    (val_main_v8 (F := Ideal) x0 x1) (val_main_cst_1 (F := Ideal)) reducesTo_S1024x64_S64_d0 hr h_S_ i
  refine hfold.trans ?_
  rw [val_main_cst_1_apply]
  show Finset.fold max (Ideal.ofBits .f32 0xFF800000#32) (val_main_v8 (F := Ideal) x0 x1 ∘ hr.lift i)
      (Finset.univ : Finset (Fin 1024)) =
    Finset.fold max ⊥ (fun e => means x0 x1 e (i 0)) (Finset.univ : Finset (Fin 1024))
  rw [ofBits_neg_inf]
  refine congrArg (fun f => Finset.fold max ⊥ f (Finset.univ : Finset (Fin 1024))) (funext fun (e : Fin 1024) => ?_)
  have eh : hr.lift i e = ix2 (n0 := 1024) (n1 := 64) e (i 0) :=
    funext fun a => Fin.ext (by match a with | ⟨0, _⟩ => rfl | ⟨1, _⟩ => rfl)
  exact (congrArg (val_main_v8 (F := Ideal) x0 x1) eh).trans (v8_read x0 x1 e (i 0))

end Cert.ReferenceIdeal.RefValue

end
-- ==== Proof.Finite.lean ====
/-
  Finiteness of the node embeddings, read off the printed precondition.

  The precondition is the conjunction of two statements, one for each argument array: every entry x of the
  array satisfies |x| < +infinity, where |x| is max x (-x) on the extended reals and +infinity is the value of
  the f32 pattern 0x7F800000. Only the first conjunct is used here. An extended real x with max x (-x) < +infinity
  is neither +infinity (then x itself is the maximum) nor -infinity (then -x = +infinity is the maximum), so it
  is a real number. Hence every entry of the first argument is a real number.
-/
import Idealize.ShloMosaic.Lib.ReduceAll
import Idealize.ShloMosaic.Lib.IdealHost
import proofs.«146869_g77077483094351_cont_sun_m_92_18_alg».proof.Pre_finite_inputs
import proofs.«146869_g77077483094351_cont_sun_m_92_18_alg».proof.Proof.Pooled

noncomputable section

namespace Cert.HyperedgePool

open Idealize.ShloMosaic Idealize.ShloMosaic.ValueIdx

/-- The rank-0 shape has exactly one index. -/
instance : Subsingleton Cert.Pre_finite_inputs.S_.Idx := ⟨fun a b => funext fun d => d.elim0⟩

/-- An extended real whose absolute value max x (-x) lies below plus infinity is a real number. -/
theorem real_of_abs_lt_top (x : EReal) (h : max x (-x) < ⊤) : ∃ r : ℝ, x = (r : EReal) := by
  induction x using EReal.rec with
  | bot => simp at h
  | coe r => exact ⟨r, rfl⟩
  | top => simp at h

/-- Under the precondition "every float input is finite", every entry of the node embeddings is a real number. -/
theorem real_of_finite [Cert.Pre_finite_inputs.Facts]
    (x0 : FVec Ideal Cert.Pre_finite_inputs.S50000x64 .f32) (x1 : FVec Ideal Cert.Pre_finite_inputs.S50000x1024 .f32)
    (h : Cert.Pre_finite_inputs.fn (F := Ideal) x0 x1 = fun _ => 1#1) :
    ∀ i, ∃ r : ℝ, x0 i = (r : EReal) := by
  intro i
  -- The predicate's one result word is 1; it is the conjunction of the two arrays' statements.
  have h0 := congrFun h ValueIdx.ix0
  dsimp only [Cert.Pre_finite_inputs.fn] at h0
  obtain ⟨h1, _⟩ := IntOp.andi_eq_one.1 h0
  -- A conjunction over all entries that is 1 is 1 at the entry i.
  have h2 := Host.reduce_andi_all _ _ _ _ _ h1 i
  -- At the entry i the comparison is |x0 i| < (the f32 pattern of plus infinity), and that pattern is ⊤.
  have htop : Ideal.ofBits .f32 0x7F800000#32 = ⊤ := by simp [Ideal.ofBits, Ideal.ieee]
  have h3 : Ideal.cmp .olt (max (x0 i) (-(x0 i))) (Ideal.ofBits .f32 0x7F800000#32) = 1#1 := h2
  rw [htop] at h3
  refine real_of_abs_lt_top (x0 i) ?_
  -- Were the strict inequality false, the comparison word would be 0, not 1.
  by_contra hn
  have : Ideal.cmp .olt (max (x0 i) (-(x0 i))) ⊤ = 0#1 := by
    simp only [Ideal.cmp, decide_eq_false hn]; rfl
  rw [this] at h3
  exact absurd h3 (by decide)

end Cert.HyperedgePool

end
-- ==== Proof.lean ====
/-
  The kernel computes, per hyperedge, the mean of the node embeddings over the rows the hyperedge selects, and
  then the maximum of those means over all hyperedges; the reference computes the same by a transposed product,
  a count, a quotient and a maximum. This file assembles the five claims.

  The kernel walks the 50000 rows in 25 blocks of 2000, adding into a 1024 x 256 accumulator the product of the
  block's selection matrix (1 where the incidence entry is positive) with the block of embeddings augmented by
  zero columns, the difference X - X, and a column of ones; after the last block it divides the selected sums by
  the selected counts and takes the maximum over the hyperedges (Pieces, Accum, Operands, OperandsIdx, MatmulIdx,
  FinalReduce, Closed, KernelRun). Over the extended reals a sum may be regrouped freely, a change of float
  format is the identity, and the kernel's selection test through a narrower format is the reference's; the one
  place where the two sides could differ is the added term  selected sum of (X - X),  which is 0 exactly when
  the entries of X are real numbers: that is what the precondition "every input is finite" supplies (Finite).
  The reference's stages are read one at a time (RefPooled). Both results are the function `pooled` (Pooled).

  The three frame claims are the generated frame runs; the one rewrite the idealization made (a round trip
  through the narrower format replaced by the identity) is that rule's statement.
-/
import proofs.«146869_g77077483094351_cont_sun_m_92_18_alg».proof.Defs
import proofs.«146869_g77077483094351_cont_sun_m_92_18_alg».proof.Proof.Gen.Kernel
import proofs.«146869_g77077483094351_cont_sun_m_92_18_alg».proof.Proof.Gen.Kernel.Skeleton
import proofs.«146869_g77077483094351_cont_sun_m_92_18_alg».proof.Proof.Gen.Kernel.Launch
import proofs.«146869_g77077483094351_cont_sun_m_92_18_alg».proof.Proof.Gen.Kernel.Points
import proofs.«146869_g77077483094351_cont_sun_m_92_18_alg».proof.Proof.Gen.Kernel.Frame
import proofs.«146869_g77077483094351_cont_sun_m_92_18_alg».proof.Proof.Gen.KernelIdeal
import proofs.«146869_g77077483094351_cont_sun_m_92_18_alg».proof.Proof.Gen.KernelIdeal.Skeleton
import proofs.«146869_g77077483094351_cont_sun_m_92_18_alg».proof.Proof.Gen.KernelIdeal.Launch
import proofs.«146869_g77077483094351_cont_sun_m_92_18_alg».proof.Proof.Gen.KernelIdeal.Points
import proofs.«146869_g77077483094351_cont_sun_m_92_18_alg».proof.Proof.Gen.KernelIdeal.Frame
import proofs.«146869_g77077483094351_cont_sun_m_92_18_alg».proof.Proof.Gen.ReferenceIdeal
import proofs.«146869_g77077483094351_cont_sun_m_92_18_alg».proof.Proof.Gen.Pre_finite_inputs
import proofs.«146869_g77077483094351_cont_sun_m_92_18_alg».proof.Proof.Gen.ReferenceIdeal.Run
import proofs.«146869_g77077483094351_cont_sun_m_92_18_alg».proof.Proof.Gen.ReferenceIdeal.Read
import proofs.«146869_g77077483094351_cont_sun_m_92_18_alg».proof.Proof.KernelRun
import proofs.«146869_g77077483094351_cont_sun_m_92_18_alg».proof.Proof.RefPooled
import proofs.«146869_g77077483094351_cont_sun_m_92_18_alg».proof.Proof.Finite
import Idealize.ShloMosaic.Adequacy
import Idealize.ShloMosaic.Init

noncomputable section

namespace Cert.Proof

open Idealize.ShloMosaic Idealize.SL.Sem

/-- The kernel as printed runs and leaves its arguments unchanged. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The one rewrite: widening after narrowing, replaced by the identity, which it is over the extended reals. -/
theorem preserves : Cert.preserves_Kernel_KernelIdeal :=
  IdealRules.truncf_extf.statement Cert.KernelIdeal.S2000x64 .f32 .bf16

/-- Both programs end with the pooled function of the arguments, which agree. -/
theorem algebraic : Cert.algebraic_KernelIdeal_ReferenceIdeal := by
  intro m ρ m' ρ' hpre hagree
  have hX : ∀ c i, ∃ x : ℝ, Cert.KernelIdeal.Acc.argX m c i = (x : EReal) :=
    fun c => Cert.HyperedgePool.real_of_finite _ _ (hpre c)
  refine ⟨fun c => Cert.KernelIdeal.Acc.result m c, Cert.KernelIdeal.Acc.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v9_eq, Cert.ReferenceIdeal.RefValue.ref_pooled, (hagree c).1, (hagree c).2]
  exact (Cert.KernelIdeal.Acc.result_eq m c (hX c)).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
